-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S360448x256 : Shape := ⟨2, ![360448, 256]⟩
abbrev S337920 : Shape := ⟨1, ![337920]⟩
abbrev S20480 : Shape := ⟨1, ![20480]⟩
abbrev S256x256 : Shape := ⟨2, ![256, 256]⟩
abbrev S256 : Shape := ⟨1, ![256]⟩
abbrev S_ : Shape := ⟨0, ![]⟩

class Facts : Prop where
  bcast_S_S360448x256 : S_.BroadcastsInDim S360448x256 (![] : Fin 0 → Fin S360448x256.rank)
  reducesTo_S360448x256_S_d0_1 : S360448x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256x256 .f32) (main_arg9 : FVec F S256 .f32) (main_arg10 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S360448x256 .f32) (main_arg1 : IVec S337920 32) (main_arg2 : IVec S337920 32) (main_arg3 : IVec S20480 32) (main_arg4 : IVec S20480 32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S360448x256 .f32 := Host.absf main_arg0
  let main_cst : FVec F S_ .f32 := constant S_ .f32 0x7F800000#32
  let main_v1 : FVec F S360448x256 .f32 := broadcastInDim S360448x256 ![] bcast_S_S360448x256 main_cst
  let main_v2 : IVec S360448x256 1 := cmpf .olt main_v0 main_v1
  let main_c : IVec S_ 1 := constantI S_ 1 1#1
  let main_v3 : IVec S_ 1 := (fun x v => Host.reduce IntOp.andi x v reducesTo_S360448x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_v13 main_v16
-- ==== Kernel.lean ====
abbrev S360448x256 : Shape := ⟨2, ![360448, 256]⟩
abbrev S337920 : Shape := ⟨1, ![337920]⟩
abbrev S20480 : Shape := ⟨1, ![20480]⟩
abbrev S256x256 : Shape := ⟨2, ![256, 256]⟩
abbrev S256 : Shape := ⟨1, ![256]⟩
abbrev S_ : Shape := ⟨0, ![]⟩
abbrev S337920x1 : Shape := ⟨2, ![337920, 1]⟩
abbrev S337920x256 : Shape := ⟨2, ![337920, 256]⟩
abbrev S22528x256 : Shape := ⟨2, ![22528, 256]⟩
abbrev S22528 : Shape := ⟨1, ![22528]⟩
abbrev S22528x1 : Shape := ⟨2, ![22528, 1]⟩
abbrev S1x256 : Shape := ⟨2, ![1, 256]⟩
abbrev S2048x256 : Shape := ⟨2, ![2048, 256]⟩
abbrev S20480x1 : Shape := ⟨2, ![20480, 1]⟩
abbrev S20480x256 : Shape := ⟨2, ![20480, 256]⟩
abbrev S2048 : Shape := ⟨1, ![2048]⟩
abbrev S2048x1 : Shape := ⟨2, ![2048, 1]⟩

abbrev nBuf : Space → Nat
  | .hbm => 67
  | .vmem => 15
  | .smem => 0
  | _ => 0

abbrev bufTy : (tb : Table) → Fin (tcTables nBuf tb) → BufTy
  | .hbm, ⟨0, _⟩ => ⟨S360448x256, .f32⟩
  | .hbm, ⟨1, _⟩ => ⟨S337920, .i32⟩
  | .hbm, ⟨2, _⟩ => ⟨S337920, .i32⟩
  | .hbm, ⟨3, _⟩ => ⟨S20480, .i32⟩
  | .hbm, ⟨4, _⟩ => ⟨S20480, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S_, .i32⟩
  | .hbm, ⟨12, _⟩ => ⟨S337920, .i32⟩
  | .hbm, ⟨13, _⟩ => ⟨S337920, .i1⟩
  | .hbm, ⟨14, _⟩ => ⟨S_, .i32⟩
  | .hbm, ⟨15, _⟩ => ⟨S337920, .i32⟩
  | .hbm, ⟨16, _⟩ => ⟨S337920, .i32⟩
  | .hbm, ⟨17, _⟩ => ⟨S337920, .i32⟩
  | .hbm, ⟨18, _⟩ => ⟨S337920x1, .i32⟩
  | .hbm, ⟨19, _⟩ => ⟨S337920x256, .f32⟩
  | .hbm, ⟨20, _⟩ => ⟨S_, .f32⟩
  | .hbm, ⟨21, _⟩ => ⟨S22528x256, .f32⟩
  | .hbm, ⟨22, _⟩ => ⟨S337920x1, .i32⟩
  | .hbm, ⟨23, _⟩ => ⟨S22528x256, .f32⟩
  | .hbm, ⟨24, _⟩ => ⟨S_, .f32⟩
  | .hbm, ⟨25, _⟩ => ⟨S337920, .f32⟩
  | .hbm, ⟨26, _⟩ => ⟨S_, .f32⟩
  | .hbm, ⟨27, _⟩ => ⟨S22528, .f32⟩
  | .hbm, ⟨28, _⟩ => ⟨S337920x1, .i32⟩
  | .hbm, ⟨29, _⟩ => ⟨S22528, .f32⟩
  | .hbm, ⟨30, _⟩ => ⟨S_, .f32⟩
  | .hbm, ⟨31, _⟩ => ⟨S22528, .f32⟩
  | .hbm, ⟨32, _⟩ => ⟨S22528, .f32⟩
  | .hbm, ⟨33, _⟩ => ⟨S22528x1, .f32⟩
  | .hbm, ⟨34, _⟩ => ⟨S22528x256, .f32⟩
  | .hbm, ⟨35, _⟩ => ⟨S22528x256, .f32⟩
  | .hbm, ⟨36, _⟩ => ⟨S22528x256, .f32⟩
  | .hbm, ⟨37, _⟩ => ⟨S1x256, .f32⟩
  | .hbm, ⟨38, _⟩ => ⟨S22528x256, .f32⟩
  | .hbm, ⟨39, _⟩ => ⟨S_, .i32⟩
  | .hbm, ⟨40, _⟩ => ⟨S20480, .i32⟩
  | .hbm, ⟨41, _⟩ => ⟨S20480, .i1⟩
  | .hbm, ⟨42, _⟩ => ⟨S_, .i32⟩
  | .hbm, ⟨43, _⟩ => ⟨S20480, .i32⟩
  | .hbm, ⟨44, _⟩ => ⟨S20480, .i32⟩
  | .hbm, ⟨45, _⟩ => ⟨S20480, .i32⟩
  | .hbm, ⟨46, _⟩ => ⟨S20480x1, .i32⟩
  | .hbm, ⟨47, _⟩ => ⟨S20480x256, .f32⟩
  | .hbm, ⟨48, _⟩ => ⟨S_, .f32⟩
  | .hbm, ⟨49, _⟩ => ⟨S2048x256, .f32⟩
  | .hbm, ⟨50, _⟩ => ⟨S20480x1, .i32⟩
  | .hbm, ⟨51, _⟩ => ⟨S2048x256, .f32⟩
  | .hbm, ⟨52, _⟩ => ⟨S_, .f32⟩
  | .hbm, ⟨53, _⟩ => ⟨S20480, .f32⟩
  | .hbm, ⟨54, _⟩ => ⟨S_, .f32⟩
  | .hbm, ⟨55, _⟩ => ⟨S2048, .f32⟩
  | .hbm, ⟨56, _⟩ => ⟨S20480x1, .i32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048x1, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S1x256, .f32⟩
  | .hbm, ⟨66, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S2048x256, .f32⟩
  | _, _ => ⟨S360448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

class Facts₀ : Prop where
  bcast_S_S337920 : S_.BroadcastsInDim S337920 (![] : Fin 0 → Fin S337920.rank)
  bcast_S337920_S337920x1_0 : S337920.BroadcastsInDim S337920x1 (![0] : Fin 1 → Fin S337920x1.rank)
  bcast_S_S22528x256 : S_.BroadcastsInDim S22528x256 (![] : Fin 0 → Fin S22528x256.rank)
  bcast_S_S22528 : S_.BroadcastsInDim S22528 (![] : Fin 0 → Fin S22528.rank)
  bcast_S22528_S22528x1_0 : S22528.BroadcastsInDim S22528x1 (![0] : Fin 1 → Fin S22528x1.rank)
  bcast_S22528x1_S22528x256_0_1 : S22528x1.BroadcastsInDim S22528x256 (![0, 1] : Fin 2 → Fin S22528x256.rank)
  slices_S360448x256_S22528x256_0_0 : S360448x256.Slices ![0, 0] S22528x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S256x256_p1_0_S256x256 : S256x256.Transposes [1, 0] S256x256
  broadcasts_S1x256_S2048x256 : S1x256.Broadcasts S2048x256
  bcast_S_S20480 : S_.BroadcastsInDim S20480 (![] : Fin 0 → Fin S20480.rank)
  bcast_S20480_S20480x1_0 : S20480.BroadcastsInDim S20480x1 (![0] : Fin 1 → Fin S20480x1.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  slices_S22528x256_S2048x256_0_0 : S22528x256.Slices ![0, 0] S2048x256
  gather_S360448x256_S337920x1_S337920x256_1_0_n_n_0_1_1256_wf : GatherDims.WF S360448x256 S337920x1 S337920x256 [1] [0] [] [0] [] 1 ![1, 256]
  scatter_S22528x256_S337920x1_S337920x256_1_0_0_1_wf : ScatterDims.WF S22528x256 S337920x1 S337920x256 [1] [0] [0] 1
  scatter_S22528_S337920x1_S337920_n_0_0_1_wf : ScatterDims.WF S22528 S337920x1 S337920 [] [0] [0] 1
  dot_S2048x256_S256x256_S2048x256_1_0_0_1_n_n_wf : DotDims.WF S2048x256 S256x256 S2048x256 [1] [0] [0] [1] [] []
  gather_S22528x256_S20480x1_S20480x256_1_0_n_n_0_1_1256_wf : GatherDims.WF S22528x256 S20480x1 S20480x256 [1] [0] [] [0] [] 1 ![1, 256]
  scatter_S2048x256_S20480x1_S20480x256_1_0_0_1_wf : ScatterDims.WF S2048x256 S20480x1 S20480x256 [1] [0] [0] 1
  scatter_S2048_S20480x1_S20480_n_0_0_1_wf : ScatterDims.WF S2048 S20480x1 S20480 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S22528x256.size a
  hwx0_0 : ∀ i : grid0.Coords, EltTy.bits .f32 = 32 ∨ (Rect.block (s := S22528x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S22528x256.size a
  hwx0_1 : ∀ i : grid0.Coords, EltTy.bits .f32 = 32 ∨ (Rect.block (s := S22528x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S22528x256.size a
  hwx0_5 : ∀ i : grid0.Coords, EltTy.bits .f32 = 32 ∨ (Rect.block (s := S22528x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S2048x256.size a
  hwx1_0 : ∀ i : grid1.Coords, EltTy.bits .f32 = 32 ∨ (Rect.block (s := S2048x256) S2048x256.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S2048x256.size a
  hwx1_5 : ∀ i : grid1.Coords, EltTy.bits .f32 = 32 ∨ (Rect.block (s := S2048x256) S2048x256.size (cc1_transform_5 i) (hinb1_5 i)).WholeWords (EltTy.packing .f32)

variable [Facts₀]

def gather_S360448x256_S337920x1_S337920x256_1_0_n_n_0_1_1256 : GatherDims S360448x256 S337920x1 S337920x256 where
  offsetDims := [1]
  collapsedSliceDims := [0]
  operandBatchingDims := []
  startIndicesBatchingDims := []
  startIndexMap := [0]
  indexVectorDim := 1
  sliceSizes := ![1, 256]
  wf := gather_S360448x256_S337920x1_S337920x256_1_0_n_n_0_1_1256_wf
def scatter_S22528x256_S337920x1_S337920x256_1_0_0_1 : ScatterDims S22528x256 S337920x1 S337920x256 where
  updateWindowDims := [1]
  insertedWindowDims := [0]
  scatterDimsToOperandDims := [0]
  indexVectorDim := 1
  wf := scatter_S22528x256_S337920x1_S337920x256_1_0_0_1_wf
def scatter_S22528_S337920x1_S337920_n_0_0_1 : ScatterDims S22528 S337920x1 S337920 where
  updateWindowDims := []
  insertedWindowDims := [0]
  scatterDimsToOperandDims := [0]
  indexVectorDim := 1
  wf := scatter_S22528_S337920x1_S337920_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S22528x256_S20480x1_S20480x256_1_0_n_n_0_1_1256 : GatherDims S22528x256 S20480x1 S20480x256 where
  offsetDims := [1]
  collapsedSliceDims := [0]
  operandBatchingDims := []
  startIndicesBatchingDims := []
  startIndexMap := [0]
  indexVectorDim := 1
  sliceSizes := ![1, 256]
  wf := gather_S22528x256_S20480x1_S20480x256_1_0_n_n_0_1_1256_wf
def scatter_S2048x256_S20480x1_S20480x256_1_0_0_1 : ScatterDims S2048x256 S20480x1 S20480x256 where
  updateWindowDims := [1]
  insertedWindowDims := [0]
  scatterDimsToOperandDims := [0]
  indexVectorDim := 1
  wf := scatter_S2048x256_S20480x1_S20480x256_1_0_0_1_wf
def scatter_S2048_S20480x1_S20480_n_0_0_1 : ScatterDims S2048 S20480x1 S20480 where
  updateWindowDims := []
  insertedWindowDims := [0]
  scatterDimsToOperandDims := [0]
  indexVectorDim := 1
  wf := scatter_S2048_S20480x1_S20480_n_0_0_1_wf

abbrev win0_0 : Pipeline.Window sig grid0 :=
  Pipeline.Window.ofSpec (Memref.whole main_v18) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2048x256.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2048x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2048x256.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S360448x256 : Shape := ⟨2, ![360448, 256]⟩
abbrev S337920 : Shape := ⟨1, ![337920]⟩
abbrev S20480 : Shape := ⟨1, ![20480]⟩
abbrev S256x256 : Shape := ⟨2, ![256, 256]⟩
abbrev S256 : Shape := ⟨1, ![256]⟩
abbrev S22528x256 : Shape := ⟨2, ![22528, 256]⟩
abbrev S_ : Shape := ⟨0, ![]⟩
abbrev S337920x1 : Shape := ⟨2, ![337920, 1]⟩
abbrev S337920x256 : Shape := ⟨2, ![337920, 256]⟩
abbrev S22528 : Shape := ⟨1, ![22528]⟩
abbrev S22528x1 : Shape := ⟨2, ![22528, 1]⟩
abbrev S1x256 : Shape := ⟨2, ![1, 256]⟩
abbrev S2048x256 : Shape := ⟨2, ![2048, 256]⟩
abbrev S20480x1 : Shape := ⟨2, ![20480, 1]⟩
abbrev S20480x256 : Shape := ⟨2, ![20480, 256]⟩
abbrev S2048 : Shape := ⟨1, ![2048]⟩
abbrev S2048x1 : Shape := ⟨2, ![2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S360448x256, .f32⟩
  | .hbm, ⟨1, _⟩ => ⟨S337920, .i32⟩
  | .hbm, ⟨2, _⟩ => ⟨S337920, .i32⟩
  | .hbm, ⟨3, _⟩ => ⟨S20480, .i32⟩
  | .hbm, ⟨4, _⟩ => ⟨S20480, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S22528x256, .f32⟩
  | .hbm, ⟨12, _⟩ => ⟨S_, .i32⟩
  | .hbm, ⟨13, _⟩ => ⟨S337920, .i32⟩
  | .hbm, ⟨14, _⟩ => ⟨S337920, .i1⟩
  | .hbm, ⟨15, _⟩ => ⟨S_, .i32⟩
  | .hbm, ⟨16, _⟩ => ⟨S337920, .i32⟩
  | .hbm, ⟨17, _⟩ => ⟨S337920, .i32⟩
  | .hbm, ⟨18, _⟩ => ⟨S337920, .i32⟩
  | .hbm, ⟨19, _⟩ => ⟨S337920x1, .i32⟩
  | .hbm, ⟨20, _⟩ => ⟨S337920x256, .f32⟩
  | .hbm, ⟨21, _⟩ => ⟨S_, .f32⟩
  | .hbm, ⟨22, _⟩ => ⟨S22528x256, .f32⟩
  | .hbm, ⟨23, _⟩ => ⟨S337920x1, .i32⟩
  | .hbm, ⟨24, _⟩ => ⟨S22528x256, .f32⟩
  | .hbm, ⟨25, _⟩ => ⟨S_, .f32⟩
  | .hbm, ⟨26, _⟩ => ⟨S337920, .f32⟩
  | .hbm, ⟨27, _⟩ => ⟨S_, .f32⟩
  | .hbm, ⟨28, _⟩ => ⟨S22528, .f32⟩
  | .hbm, ⟨29, _⟩ => ⟨S337920x1, .i32⟩
  | .hbm, ⟨30, _⟩ => ⟨S22528, .f32⟩
  | .hbm, ⟨31, _⟩ => ⟨S_, .f32⟩
  | .hbm, ⟨32, _⟩ => ⟨S22528, .f32⟩
  | .hbm, ⟨33, _⟩ => ⟨S22528, .f32⟩
  | .hbm, ⟨34, _⟩ => ⟨S22528x1, .f32⟩
  | .hbm, ⟨35, _⟩ => ⟨S22528x256, .f32⟩
  | .hbm, ⟨36, _⟩ => ⟨S22528x256, .f32⟩
  | .hbm, ⟨37, _⟩ => ⟨S256x256, .f32⟩
  | .hbm, ⟨38, _⟩ => ⟨S22528x256, .f32⟩
  | .hbm, ⟨39, _⟩ => ⟨S1x256, .f32⟩
  | .hbm, ⟨40, _⟩ => ⟨S22528x256, .f32⟩
  | .hbm, ⟨41, _⟩ => ⟨S22528x256, .f32⟩
  | .hbm, ⟨42, _⟩ => ⟨S256x256, .f32⟩
  | .hbm, ⟨43, _⟩ => ⟨S22528x256, .f32⟩
  | .hbm, ⟨44, _⟩ => ⟨S22528x256, .f32⟩
  | .hbm, ⟨45, _⟩ => ⟨S_, .f32⟩
  | .hbm, ⟨46, _⟩ => ⟨S22528x256, .f32⟩
  | .hbm, ⟨47, _⟩ => ⟨S22528x256, .f32⟩
  | .hbm, ⟨48, _⟩ => ⟨S2048x256, .f32⟩
  | .hbm, ⟨49, _⟩ => ⟨S_, .i32⟩
  | .hbm, ⟨50, _⟩ => ⟨S20480, .i32⟩
  | .hbm, ⟨51, _⟩ => ⟨S20480, .i1⟩
  | .hbm, ⟨52, _⟩ => ⟨S_, .i32⟩
  | .hbm, ⟨53, _⟩ => ⟨S20480, .i32⟩
  | .hbm, ⟨54, _⟩ => ⟨S20480, .i32⟩
  | .hbm, ⟨55, _⟩ => ⟨S20480, .i32⟩
  | .hbm, ⟨56, _⟩ => ⟨S20480x1, .i32⟩
  | .hbm, ⟨57, _⟩ => ⟨S20480x256, .f32⟩
  | .hbm, ⟨58, _⟩ => ⟨S_, .f32⟩
  | .hbm, ⟨59, _⟩ => ⟨S2048x256, .f32⟩
  | .hbm, ⟨60, _⟩ => ⟨S20480x1, .i32⟩
  | .hbm, ⟨61, _⟩ => ⟨S2048x256, .f32⟩
  | .hbm, ⟨62, _⟩ => ⟨S_, .f32⟩
  | .hbm, ⟨63, _⟩ => ⟨S20480, .f32⟩
  | .hbm, ⟨64, _⟩ => ⟨S_, .f32⟩
  | .hbm, ⟨65, _⟩ => ⟨S2048, .f32⟩
  | .hbm, ⟨66, _⟩ => ⟨S20480x1, .i32⟩
  | .hbm, ⟨67, _⟩ => ⟨S2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048x1, .f32⟩
  | .hbm, ⟨72, _⟩ => ⟨S2048x256, .f32⟩
  | .hbm, ⟨73, _⟩ => ⟨S2048x256, .f32⟩
  | .hbm, ⟨74, _⟩ => ⟨S256x256, .f32⟩
  | .hbm, ⟨75, _⟩ => ⟨S2048x256, .f32⟩
  | .hbm, ⟨76, _⟩ => ⟨S1x256, .f32⟩
  | .hbm, ⟨77, _⟩ => ⟨S2048x256, .f32⟩
  | .hbm, ⟨78, _⟩ => ⟨S2048x256, .f32⟩
  | .hbm, ⟨79, _⟩ => ⟨S256x256, .f32⟩
  | .hbm, ⟨80, _⟩ => ⟨S2048x256, .f32⟩
  | .hbm, ⟨81, _⟩ => ⟨S2048x256, .f32⟩
  | _, _ => ⟨S360448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  slices_S360448x256_S22528x256_0_0 : S360448x256.Slices ![0, 0] S22528x256
  bcast_S_S337920 : S_.BroadcastsInDim S337920 (![] : Fin 0 → Fin S337920.rank)
  bcast_S337920_S337920x1_0 : S337920.BroadcastsInDim S337920x1 (![0] : Fin 1 → Fin S337920x1.rank)
  bcast_S_S22528x256 : S_.BroadcastsInDim S22528x256 (![] : Fin 0 → Fin S22528x256.rank)
  bcast_S_S22528 : S_.BroadcastsInDim S22528 (![] : Fin 0 → Fin S22528.rank)
  bcast_S22528_S22528x1_0 : S22528.BroadcastsInDim S22528x1 (![0] : Fin 1 → Fin S22528x1.rank)
  bcast_S22528x1_S22528x256_0_1 : S22528x1.BroadcastsInDim S22528x256 (![0, 1] : Fin 2 → Fin S22528x256.rank)
  transposes_S256x256_S256x256_1_0 : S256x256.Transposes [1, 0] S256x256
  bcast_S256_S1x256_1 : S256.BroadcastsInDim S1x256 (![1] : Fin 1 → Fin S1x256.rank)
  bcast_S1x256_S22528x256_0_1 : S1x256.BroadcastsInDim S22528x256 (![0, 1] : Fin 2 → Fin S22528x256.rank)
  slices_S22528x256_S2048x256_0_0 : S22528x256.Slices ![0, 0] S2048x256
  bcast_S_S20480 : S_.BroadcastsInDim S20480 (![] : Fin 0 → Fin S20480.rank)
  bcast_S20480_S20480x1_0 : S20480.BroadcastsInDim S20480x1 (![0] : Fin 1 → Fin S20480x1.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  gather_S360448x256_S337920x1_S337920x256_1_0_n_n_0_1_1256_wf : GatherDims.WF S360448x256 S337920x1 S337920x256 [1] [0] [] [0] [] 1 ![1, 256]
  scatter_S22528x256_S337920x1_S337920x256_1_0_0_1_wf : ScatterDims.WF S22528x256 S337920x1 S337920x256 [1] [0] [0] 1
  scatter_S22528_S337920x1_S337920_n_0_0_1_wf : ScatterDims.WF S22528 S337920x1 S337920 [] [0] [0] 1
  dot_S22528x256_S256x256_S22528x256_1_0_0_1_n_n_wf : DotDims.WF S22528x256 S256x256 S22528x256 [1] [0] [0] [1] [] []
  gather_S22528x256_S20480x1_S20480x256_1_0_n_n_0_1_1256_wf : GatherDims.WF S22528x256 S20480x1 S20480x256 [1] [0] [] [0] [] 1 ![1, 256]
  scatter_S2048x256_S20480x1_S20480x256_1_0_0_1_wf : ScatterDims.WF S2048x256 S20480x1 S20480x256 [1] [0] [0] 1
  scatter_S2048_S20480x1_S20480_n_0_0_1_wf : ScatterDims.WF S2048 S20480x1 S20480 [] [0] [0] 1
  dot_S2048x256_S256x256_S2048x256_1_0_0_1_n_n_wf : DotDims.WF S2048x256 S256x256 S2048x256 [1] [0] [0] [1] [] []

variable [Facts₀]

def gather_S360448x256_S337920x1_S337920x256_1_0_n_n_0_1_1256 : GatherDims S360448x256 S337920x1 S337920x256 where
  offsetDims := [1]
  collapsedSliceDims := [0]
  operandBatchingDims := []
  startIndicesBatchingDims := []
  startIndexMap := [0]
  indexVectorDim := 1
  sliceSizes := ![1, 256]
  wf := gather_S360448x256_S337920x1_S337920x256_1_0_n_n_0_1_1256_wf
def scatter_S22528x256_S337920x1_S337920x256_1_0_0_1 : ScatterDims S22528x256 S337920x1 S337920x256 where
  updateWindowDims := [1]
  insertedWindowDims := [0]
  scatterDimsToOperandDims := [0]
  indexVectorDim := 1
  wf := scatter_S22528x256_S337920x1_S337920x256_1_0_0_1_wf
def scatter_S22528_S337920x1_S337920_n_0_0_1 : ScatterDims S22528 S337920x1 S337920 where
  updateWindowDims := []
  insertedWindowDims := [0]
  scatterDimsToOperandDims := [0]
  indexVectorDim := 1
  wf := scatter_S22528_S337920x1_S337920_n_0_0_1_wf
def dot_S22528x256_S256x256_S22528x256_1_0_0_1_n_n : DotDims S22528x256 S256x256 S22528x256 where
  lhsContracting := [1]
  rhsContracting := [0]
  lhsNonContracting := [0]
  rhsNonContracting := [1]
  lhsBatch := []
  rhsBatch := []
  wf := dot_S22528x256_S256x256_S22528x256_1_0_0_1_n_n_wf
def gather_S22528x256_S20480x1_S20480x256_1_0_n_n_0_1_1256 : GatherDims S22528x256 S20480x1 S20480x256 where
  offsetDims := [1]
  collapsedSliceDims := [0]
  operandBatchingDims := []
  startIndicesBatchingDims := []
  startIndexMap := [0]
  indexVectorDim := 1
  sliceSizes := ![1, 256]
  wf := gather_S22528x256_S20480x1_S20480x256_1_0_n_n_0_1_1256_wf
def scatter_S2048x256_S20480x1_S20480x256_1_0_0_1 : ScatterDims S2048x256 S20480x1 S20480x256 where
  updateWindowDims := [1]
  insertedWindowDims := [0]
  scatterDimsToOperandDims := [0]
  indexVectorDim := 1
  wf := scatter_S2048x256_S20480x1_S20480x256_1_0_0_1_wf
def scatter_S2048_S20480x1_S20480_n_0_0_1 : ScatterDims S2048 S20480x1 S20480 where
  updateWindowDims := []
  insertedWindowDims := [0]
  scatterDimsToOperandDims := [0]
  indexVectorDim := 1
  wf := scatter_S2048_S20480x1_S20480_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.SageLayer.lean ====
/-
  One GraphSAGE layer on the extended reals, entry by entry.

  For a row-feature array `A` (the neighbour mean), a row-feature array `X` (the target nodes' own features), two
  256 x 256 weight matrices `Wl`, `Wr` (used transposed) and a bias row `b`, the layer's entry (r, j) is

      sum_k A(r,k) * Wl(j,k)  +  b(j)  +  sum_k X(r,k) * Wr(j,k).

  The two programs add the three summands in different orders: (first + bias) + second against
  (first + second) + bias.  Addition of extended reals is commutative and associative (even at the infinities), so
  the two orders agree; no finiteness is needed.  The bias may be given as a 256-vector or as a 1 x 256 row.
-/
import Idealize.ShloMosaic.Lib.ValueIdx
import Idealize.ShloMosaic.Lib.Pipeline.Value
import Idealize.ShloMosaic.PureOps.Ideal.Laws

noncomputable section

open scoped BigOperators

namespace Sage

open Idealize.ShloMosaic Idealize.ShloMosaic.ValueIdx

variable {n : Nat}

/-- An array of `n` rows of 256 features given by its entries. -/
def ofEntries (f : Fin n → Fin 256 → EReal) : (⟨2, ![n, 256]⟩ : Shape).Idx → EReal :=
  fun i => f ⟨(i 0).val, idx2_lt0 i⟩ ⟨(i 1).val, idx2_lt1 i⟩

theorem ofEntries_ix2 (f : Fin n → Fin 256 → EReal) (r : Fin n) (j : Fin 256) : ofEntries f (ix2 r j) = f r j := rfl

/-- Two arrays with the same entries are equal. -/
theorem ext_ix2 {Y Z : (⟨2, ![n, 256]⟩ : Shape).Idx → EReal} (h : ∀ (r : Fin n) (j : Fin 256), Y (ix2 r j) = Z (ix2 r j)) : Y = Z := by
  funext i
  obtain ⟨r, j, rfl⟩ : ∃ (r : Fin n) (j : Fin 256), i = ix2 r j := ⟨i 0, i 1, eq_ix2 i⟩
  exact h r j

/-- The matrix product with a transposed weight matrix, at entry (r, j): `sum_k A(r,k) * W(j,k)`. -/
def dotT (A : (⟨2, ![n, 256]⟩ : Shape).Idx → EReal) (W : (⟨2, ![256, 256]⟩ : Shape).Idx → EReal) (r : Fin n) (j : Fin 256) : EReal :=
  ∑ k : Fin 256, A (ix2 r k) * W (ix2 j k)

/-- The layer's entry in the order "(first product + bias) + second product", the bias a 256-vector. -/
def entry (A X : (⟨2, ![n, 256]⟩ : Shape).Idx → EReal) (Wl : (⟨2, ![256, 256]⟩ : Shape).Idx → EReal)
    (b : (⟨1, ![256]⟩ : Shape).Idx → EReal) (Wr : (⟨2, ![256, 256]⟩ : Shape).Idx → EReal) (r : Fin n) (j : Fin 256) : EReal :=
  (dotT A Wl r j + b (ix1 j)) + dotT X Wr r j

/-- The layer's entry in the order "(first product + second product) + bias", the bias a 1 x 256 row. -/
def entryRow (A X : (⟨2, ![n, 256]⟩ : Shape).Idx → EReal) (Wl : (⟨2, ![256, 256]⟩ : Shape).Idx → EReal)
    (B : (⟨2, ![1, 256]⟩ : Shape).Idx → EReal) (Wr : (⟨2, ![256, 256]⟩ : Shape).Idx → EReal) (r : Fin n) (j : Fin 256) : EReal :=
  (dotT A Wl r j + dotT X Wr r j) + B (ix2 (0 : Fin 1) j)

/-- The zero word at the exact instance (the same word on both sides; never evaluated). -/
def zeroWord : EReal := Ideal.ofBits .f32 0x00000000#32

/-- The layer as an array, bias a vector. -/
def layer (A X : (⟨2, ![n, 256]⟩ : Shape).Idx → EReal) (Wl : (⟨2, ![256, 256]⟩ : Shape).Idx → EReal)
    (b : (⟨1, ![256]⟩ : Shape).Idx → EReal) (Wr : (⟨2, ![256, 256]⟩ : Shape).Idx → EReal) : (⟨2, ![n, 256]⟩ : Shape).Idx → EReal :=
  ofEntries (entry A X Wl b Wr)

/-- The layer as an array, bias a row, the other order of the summands. -/
def layerRow (A X : (⟨2, ![n, 256]⟩ : Shape).Idx → EReal) (Wl : (⟨2, ![256, 256]⟩ : Shape).Idx → EReal)
    (B : (⟨2, ![1, 256]⟩ : Shape).Idx → EReal) (Wr : (⟨2, ![256, 256]⟩ : Shape).Idx → EReal) : (⟨2, ![n, 256]⟩ : Shape).Idx → EReal :=
  ofEntries (entryRow A X Wl B Wr)

/-- The rectifier against the zero word. -/
def relu (Y : (⟨2, ![n, 256]⟩ : Shape).Idx → EReal) : (⟨2, ![n, 256]⟩ : Shape).Idx → EReal :=
  fun i => max (Y i) zeroWord

/-- The two orders of the three summands agree, when the row is the vector's reshape. -/
theorem entryRow_eq_entry (A X : (⟨2, ![n, 256]⟩ : Shape).Idx → EReal) (Wl Wr : (⟨2, ![256, 256]⟩ : Shape).Idx → EReal)
    (b : (⟨1, ![256]⟩ : Shape).Idx → EReal) (B : (⟨2, ![1, 256]⟩ : Shape).Idx → EReal)
    (hB : ∀ j : Fin 256, B (ix2 (0 : Fin 1) j) = b (ix1 j)) (r : Fin n) (j : Fin 256) :
    entryRow A X Wl B Wr r j = entry A X Wl b Wr r j := by
  unfold entryRow entry
  rw [hB]
  exact add_right_comm _ _ _

theorem layerRow_eq_layer (A X : (⟨2, ![n, 256]⟩ : Shape).Idx → EReal) (Wl Wr : (⟨2, ![256, 256]⟩ : Shape).Idx → EReal)
    (b : (⟨1, ![256]⟩ : Shape).Idx → EReal) (B : (⟨2, ![1, 256]⟩ : Shape).Idx → EReal)
    (hB : ∀ j : Fin 256, B (ix2 (0 : Fin 1) j) = b (ix1 j)) :
    layerRow A X Wl B Wr = layer A X Wl b Wr := by
  unfold layerRow layer
  exact congrArg ofEntries (funext fun r => funext fun j => entryRow_eq_entry A X Wl Wr b B hB r j)

/-- An entry reads one row of each row-feature array, one row of each weight matrix and one bias entry: two
    entries over operands that agree there are equal. -/
theorem entryRow_congr {n' : Nat} (A X : (⟨2, ![n, 256]⟩ : Shape).Idx → EReal) (A' X' : (⟨2, ![n', 256]⟩ : Shape).Idx → EReal)
    (Wl Wr Wl' Wr' : (⟨2, ![256, 256]⟩ : Shape).Idx → EReal) (B B' : (⟨2, ![1, 256]⟩ : Shape).Idx → EReal)
    (r : Fin n) (r' : Fin n') (j j' : Fin 256)
    (hA : ∀ k : Fin 256, A' (ix2 r' k) = A (ix2 r k)) (hX : ∀ k : Fin 256, X' (ix2 r' k) = X (ix2 r k))
    (hWl : ∀ k : Fin 256, Wl' (ix2 j' k) = Wl (ix2 j k)) (hWr : ∀ k : Fin 256, Wr' (ix2 j' k) = Wr (ix2 j k))
    (hB : B' (ix2 (0 : Fin 1) j') = B (ix2 (0 : Fin 1) j)) :
    entryRow A' X' Wl' B' Wr' r' j' = entryRow A X Wl B Wr r j := by
  unfold entryRow dotT
  simp only [hA, hX, hWl, hWr, hB]

/-- The same for the other order of the summands, the bias a vector. -/
theorem entry_congr {n' : Nat} (A X : (⟨2, ![n, 256]⟩ : Shape).Idx → EReal) (A' X' : (⟨2, ![n', 256]⟩ : Shape).Idx → EReal)
    (Wl Wr : (⟨2, ![256, 256]⟩ : Shape).Idx → EReal) (b : (⟨1, ![256]⟩ : Shape).Idx → EReal)
    (r : Fin n) (r' : Fin n') (j : Fin 256)
    (hA : ∀ k : Fin 256, A' (ix2 r' k) = A (ix2 r k)) (hX : ∀ k : Fin 256, X' (ix2 r' k) = X (ix2 r k)) :
    entry A' X' Wl b Wr r' j = entry A X Wl b Wr r j := by
  unfold entry dotT
  simp only [hA, hX]

end Sage

end
-- ==== Proof.RefLayers.lean ====
/-
  The reference's two layers, entry by entry.

  The reference forms the neighbour mean by a gather, a scatter-add of the gathered rows, a scatter-add of ones (the
  neighbour count, at least one) and a division; those stages are carried as they stand.  From the mean `A` and the
  target rows `X` each layer is  A . Wl^T + b + X . Wr^T : two contractions with explicitly transposed weight matrices
  and a bias vector broadcast down the rows.  Read at the entry (r, j) that is the layer's entry; the first layer is
  then rectified against zero.  The second layer's mean and target rows are functions of the hidden array alone
  (beside the edge lists): `agg1` and `firstRows`.
-/
import proofs.«149771_j40862318854556_1_alg».proof.Proof.Gen.ReferenceIdeal.Read
import proofs.«149771_j40862318854556_1_alg».proof.Proof.SageLayer

set_option maxRecDepth 16384

noncomputable section

open scoped BigOperators

namespace Cert.ReferenceIdeal.Layers

open Idealize.ShloMosaic Idealize.ShloMosaic.ValueIdx Cert.ReferenceIdeal Cert.ReferenceIdeal.Gen Cert.ReferenceIdeal.Read

/-- The second layer's neighbour mean as a function of the hidden array and the second edge list. -/
def agg1 (h : (⟨S22528x256, .f32⟩ : BufTy).Contents (Elt Ideal)) (x3 x4 : (⟨S20480, .i32⟩ : BufTy).Contents (Elt Ideal)) :
    (⟨S2048x256, .f32⟩ : BufTy).Contents (Elt Ideal) :=
  Host.divf (F := Ideal) (φ := .f32) (Host.scatterAdd (F := Ideal) (φ := .f32) scatter_S2048x256_S20480x1_S20480x256_1_0_0_1 (val_main_v37 (F := Ideal)) (val_main_v38 (F := Ideal) x4)
    (Host.gather gather_S22528x256_S20480x1_S20480x256_1_0_n_n_0_1_1256 h (val_main_v35 (F := Ideal) x3))) (val_main_v47 (F := Ideal) x4)

/-- The first 2048 rows of the hidden array: the second layer's target rows. -/
def firstRows (h : (⟨S22528x256, .f32⟩ : BufTy).Contents (Elt Ideal)) : (⟨S2048x256, .f32⟩ : BufTy).Contents (Elt Ideal) :=
  extractStridedSlice S2048x256 ![0, 0] h slices_S22528x256_S2048x256_0_0

section
variable (x0 : (⟨S360448x256, .f32⟩ : BufTy).Contents (Elt Ideal)) (x1 x2 : (⟨S337920, .i32⟩ : BufTy).Contents (Elt Ideal))
  (x3 x4 : (⟨S20480, .i32⟩ : BufTy).Contents (Elt Ideal)) (x5 : (⟨S256x256, .f32⟩ : BufTy).Contents (Elt Ideal))
  (x6 : (⟨S256, .f32⟩ : BufTy).Contents (Elt Ideal)) (x7 x8 : (⟨S256x256, .f32⟩ : BufTy).Contents (Elt Ideal))
  (x9 : (⟨S256, .f32⟩ : BufTy).Contents (Elt Ideal)) (x10 : (⟨S256x256, .f32⟩ : BufTy).Contents (Elt Ideal))

theorem mean1_eq : val_main_v48 (F := Ideal) x0 x1 x2 x3 x4 x5 x6 x7 = agg1 (val_main_v28 (F := Ideal) x0 x1 x2 x5 x6 x7) x3 x4 := rfl

theorem target1_eq : val_main_v29 (F := Ideal) x0 x1 x2 x5 x6 x7 = firstRows (val_main_v28 (F := Ideal) x0 x1 x2 x5 x6 x7) := rfl

/-- The hidden stage is the rectified first layer of the first mean and the first 22528 input rows. -/
theorem hidden_eq :
    val_main_v28 (F := Ideal) x0 x1 x2 x5 x6 x7
      = Sage.relu (Sage.layer (n := 22528) (val_main_v19 (F := Ideal) x0 x1 x2) (val_main_v0 (F := Ideal) x0) x5 x6 x7) := by
  refine Sage.ext_ix2 fun r j => ?_
  rw [val_main_v28_apply, val_main_v27_apply, val_main_v24_apply, val_main_v21_apply, val_main_v26_apply, val_main_v23_apply,
    val_main_v22_apply, val_main_call0_v0_apply, val_main_call0_cst_apply]
  simp only [val_main_v20_apply, val_main_v25_apply]
  have e1 : ∀ k : Fin 256, lidx_main_v21 (ix2 (r : Fin 22528) j) k = ix2 r k := fun k => funext fun a => by
    match a with
    | ⟨0, _⟩ => rfl
    | ⟨1, _⟩ => rfl
  have e2 : ∀ k : Fin 256, idx_main_v20 (ridx_main_v21 (ix2 (r : Fin 22528) j) k) = ix2 j k := fun k => funext fun a => by
    match a with
    | ⟨0, _⟩ => rfl
    | ⟨1, _⟩ => rfl
  have e3 : ∀ k : Fin 256, lidx_main_v26 (ix2 (r : Fin 22528) j) k = ix2 r k := fun k => funext fun a => by
    match a with
    | ⟨0, _⟩ => rfl
    | ⟨1, _⟩ => rfl
  have e4 : ∀ k : Fin 256, idx_main_v25 (ridx_main_v26 (ix2 (r : Fin 22528) j) k) = ix2 j k := fun k => funext fun a => by
    match a with
    | ⟨0, _⟩ => rfl
    | ⟨1, _⟩ => rfl
  have e5 : idx_main_v22 (idx_main_v23 (ix2 (r : Fin 22528) j)) = ix1 j := funext fun a => by
    match a with
    | ⟨0, _⟩ => rfl
  simp only [e1, e2, e3, e4, e5]
  rfl

/-- The result stage is the second layer of the second mean and the second target rows. -/
theorem out_eq :
    val_main_v56 (F := Ideal) x0 x1 x2 x3 x4 x5 x6 x7 x8 x9 x10
      = Sage.layer (n := 2048) (val_main_v48 (F := Ideal) x0 x1 x2 x3 x4 x5 x6 x7) (val_main_v29 (F := Ideal) x0 x1 x2 x5 x6 x7) x8 x9 x10 := by
  refine Sage.ext_ix2 fun r j => ?_
  rw [val_main_v56_apply, val_main_v53_apply, val_main_v50_apply, val_main_v55_apply, val_main_v52_apply, val_main_v51_apply]
  simp only [val_main_v49_apply, val_main_v54_apply]
  have e1 : ∀ k : Fin 256, lidx_main_v50 (ix2 (r : Fin 2048) j) k = ix2 r k := fun k => funext fun a => by
    match a with
    | ⟨0, _⟩ => rfl
    | ⟨1, _⟩ => rfl
  have e2 : ∀ k : Fin 256, idx_main_v49 (ridx_main_v50 (ix2 (r : Fin 2048) j) k) = ix2 j k := fun k => funext fun a => by
    match a with
    | ⟨0, _⟩ => rfl
    | ⟨1, _⟩ => rfl
  have e3 : ∀ k : Fin 256, lidx_main_v55 (ix2 (r : Fin 2048) j) k = ix2 r k := fun k => funext fun a => by
    match a with
    | ⟨0, _⟩ => rfl
    | ⟨1, _⟩ => rfl
  have e4 : ∀ k : Fin 256, idx_main_v54 (ridx_main_v55 (ix2 (r : Fin 2048) j) k) = ix2 j k := fun k => funext fun a => by
    match a with
    | ⟨0, _⟩ => rfl
    | ⟨1, _⟩ => rfl
  have e5 : idx_main_v51 (idx_main_v52 (ix2 (r : Fin 2048) j)) = ix1 j := funext fun a => by
    match a with
    | ⟨0, _⟩ => rfl
  simp only [e1, e2, e3, e4, e5]
  rfl

end

end Cert.ReferenceIdeal.Layers

end
-- ==== Proof.KernelHost.lean ====
/-
  What the two kernel regions find in their operand arrays.

  Before the first region the host forms the first neighbour mean of the inputs (gather, two scatter-adds, a maximum
  with one and a division: the same stages, in the same order and with the same constants, as the reference's), takes
  the first 22528 input rows and reshapes the first bias vector to a row; the weights are passed as they are.  Between
  the regions it does the same with the first region's result array in place of the inputs.  Each operand array is
  read off the fold of the host operations; the shared stages are named by the reference's stage functions.
-/
import proofs.«149771_j40862318854556_1_alg».proof.Proof.Gen.KernelIdeal.Frame
import proofs.«149771_j40862318854556_1_alg».proof.Proof.RefLayers
import Idealize.ShloMosaic.Lib.StableHlo.Run
import Idealize.ShloMosaic.Lib.ValueLayout

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Region 0's operands -/

set_option maxHeartbeats 4000000 in
/-- The first neighbour mean: the reference's stage of the same name, of the launch contents. -/
theorem mean0 : V1 m ρ c main_v18 = Cert.ReferenceIdeal.Read.val_main_v19 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
/-- The first target rows: the first 22528 input rows. -/
theorem target0 : V1 m ρ c main_v19 = Cert.ReferenceIdeal.Read.val_main_v0 (F := Ideal) (m ((c : Thread nD τ).loc main_arg0)) := by
  show StableHlo.after hostOps0 (W0 m ρ c) (Proc.devRef .tc main_v19) = _
  after_results_simp
  rfl

set_option maxHeartbeats 4000000 in
theorem wl0 : V1 m ρ c main_arg5 = (m ((c : Thread nD τ).loc main_arg5)) := by
  show StableHlo.after hostOps0 (W0 m ρ c) (Proc.devRef .tc main_arg5) = _
  after_results_simp

set_option maxHeartbeats 4000000 in
theorem wr0 : V1 m ρ c main_arg7 = (m ((c : Thread nD τ).loc main_arg7)) := by
  show StableHlo.after hostOps0 (W0 m ρ c) (Proc.devRef .tc main_arg7) = _
  after_results_simp

set_option maxHeartbeats 4000000 in
/-- The first bias row is the bias vector, entry by entry. -/
theorem bias0 (j : Fin 256) : V1 m ρ c main_v20 (ix2 (0 : Fin 1) j) = (m ((c : Thread nD τ).loc main_arg6)) (ix1 j) := by
  show StableHlo.after hostOps0 (W0 m ρ c) (Proc.devRef .tc main_v20) (ix2 (0 : Fin 1) j) = _
  after_results_simp
  exact shapeCast_a_1a_apply _ shapeCasts_S256_S1x256 0 j

/-! ## Between the regions: the launch contents are still there, the first region's result is what it left -/

set_option maxHeartbeats 4000000 in
theorem keep (b : Ref sig .tc) (h1 : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b h1).trans h0

set_option maxHeartbeats 4000000 in
theorem src1 : W2 m ρ c (Proc.devRef .tc main_arg3) = (m ((c : Thread nD τ).loc main_arg3)) :=
  keep m ρ c main_arg3 (by decide) (by after_results_simp)
set_option maxHeartbeats 4000000 in
theorem dst1 : W2 m ρ c (Proc.devRef .tc main_arg4) = (m ((c : Thread nD τ).loc main_arg4)) :=
  keep m ρ c main_arg4 (by decide) (by after_results_simp)
set_option maxHeartbeats 4000000 in
theorem wl1K : W2 m ρ c (Proc.devRef .tc main_arg8) = (m ((c : Thread nD τ).loc main_arg8)) :=
  keep m ρ c main_arg8 (by decide) (by after_results_simp)
set_option maxHeartbeats 4000000 in
theorem bl1K : W2 m ρ c (Proc.devRef .tc main_arg9) = (m ((c : Thread nD τ).loc main_arg9)) :=
  keep m ρ c main_arg9 (by decide) (by after_results_simp)
set_option maxHeartbeats 4000000 in
theorem wr1K : W2 m ρ c (Proc.devRef .tc main_arg10) = (m ((c : Thread nD τ).loc main_arg10)) :=
  keep m ρ c main_arg10 (by decide) (by after_results_simp)

/-! ## Region 1's operands, over the first region's result array `W2 … main_v21` -/

set_option maxHeartbeats 4000000 in
/-- The second neighbour mean: the reference's `agg1` of what the first region left and the second edge list. -/
theorem mean1 : V3 m ρ c main_v40 = Cert.ReferenceIdeal.Layers.agg1 (W2 m ρ c (Proc.devRef .tc main_v21)) (m ((c : Thread nD τ).loc main_arg3)) (m ((c : Thread nD τ).loc main_arg4)) := by
  show StableHlo.after hostOps1 (W2 m ρ c) (Proc.devRef .tc main_v40) = _
  after_results_simp
  rw [src1, dst1]
  rfl

set_option maxHeartbeats 4000000 in
/-- The second target rows: the first 2048 rows of what the first region left. -/
theorem target1 : V3 m ρ c main_v41 = Cert.ReferenceIdeal.Layers.firstRows (W2 m ρ c (Proc.devRef .tc main_v21)) := by
  show StableHlo.after hostOps1 (W2 m ρ c) (Proc.devRef .tc main_v41) = _
  after_results_simp
  rfl

set_option maxHeartbeats 4000000 in
theorem wl1 : V3 m ρ c main_arg8 = (m ((c : Thread nD τ).loc main_arg8)) := by
  show StableHlo.after hostOps1 (W2 m ρ c) (Proc.devRef .tc main_arg8) = _
  after_results_simp
  exact wl1K m ρ c

set_option maxHeartbeats 4000000 in
theorem wr1 : V3 m ρ c main_arg10 = (m ((c : Thread nD τ).loc main_arg10)) := by
  show StableHlo.after hostOps1 (W2 m ρ c) (Proc.devRef .tc main_arg10) = _
  after_results_simp
  exact wr1K m ρ c

set_option maxHeartbeats 4000000 in
/-- The second bias row is the bias vector, entry by entry. -/
theorem bias1 (j : Fin 256) : V3 m ρ c main_v42 (ix2 (0 : Fin 1) j) = (m ((c : Thread nD τ).loc main_arg9)) (ix1 j) := by
  show StableHlo.after hostOps1 (W2 m ρ c) (Proc.devRef .tc main_v42) (ix2 (0 : Fin 1) j) = _
  after_results_simp
  rw [bl1K]
  exact shapeCast_a_1a_apply _ shapeCasts_S256_S1x256 0 j

end Cert.KernelIdeal.HostSide

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Payload.lean ====
/-
  What the two kernel bodies store, entry by entry, on the extended reals.

  Each body loads a 2048 x 256 block of the neighbour means, the matching block of the target nodes' features, the
  two weight matrices and the bias row, rounds to bf16 (the identity on the extended reals), multiplies each block by
  the TRANSPOSED weight matrix into a zero accumulator, adds the two products, then the bias row broadcast down the
  rows; the first layer's body rectifies the sum against zero.  At the entry (p, q) of the block that is

      (sum_k a(p,k) * wl(q,k) + sum_k x(p,k) * wr(q,k)) + bias(0,q),

  the layer's entry with the bias added last.
-/
import proofs.«149771_j40862318854556_1_alg».proof.Proof.Gen.KernelIdeal.Skeleton
import proofs.«149771_j40862318854556_1_alg».proof.Proof.LibPlainDot
import proofs.«149771_j40862318854556_1_alg».proof.Proof.SageLayer

noncomputable section

open scoped BigOperators

namespace Cert.KernelIdeal.Body

open Idealize.ShloMosaic Idealize.ShloMosaic.ValueIdx Cert.KernelIdeal Cert.KernelIdeal.Gen

/-- The bodies' matrix products contract the block's feature axis with the (transposed) weight's first axis. -/
theorem plain : PlainDot.IsPlain dot_S2048x256_S256x256_S2048x256_1_0_0_1_n_n := ⟨rfl, rfl, rfl, rfl, rfl, rfl⟩

/-- The rounded, transposed weight matrix at (i, q) is the weight matrix at (q, i). -/
theorem weightT_apply (w : Vec Ideal S256x256 .f32) (i q : Fin 256) :
    transpose S256x256 [1, 0] (truncf (F := Ideal) .bf16 w bitsLt_bf16_f32) transposes_S256x256_p1_0_S256x256 (ix2 i q) = w (ix2 q i) :=
  transpose_apply [1, 0] (truncf (F := Ideal) .bf16 w bitsLt_bf16_f32) transposes_S256x256_p1_0_S256x256 (ix2 i q) (ix2 q i) (fun b => match b with
    | ⟨0, _⟩ => rfl
    | ⟨1, _⟩ => rfl)

/-- A block times the transposed weights, into a zero accumulator, at (p, q). -/
theorem product_apply (x : Vec Ideal S2048x256 .f32) (w : Vec Ideal S256x256 .f32) (p : Fin 2048) (q : Fin 256) :
    matmul (F := Ideal) dot_S2048x256_S256x256_S2048x256_1_0_0_1_n_n none
      (truncf (F := Ideal) .bf16 (shapeCast S2048x256 x shapeCasts_S2048x256_S2048x256) bitsLt_bf16_f32)
      (transpose S256x256 [1, 0] (truncf (F := Ideal) .bf16 w bitsLt_bf16_f32) transposes_S256x256_p1_0_S256x256)
      (constant (F := Ideal) S2048x256 .f32 0x00000000#32) (ix2 p q) = Sage.dotT (n := 2048) x w p q := by
  rw [shapeCast_self]
  refine (PlainDot.matmul_zero_apply plain none _ _ p q).trans ?_
  unfold Sage.dotT
  refine Finset.sum_congr rfl fun k _ => ?_
  rw [weightT_apply]
  rfl

/-- The bias row broadcast down the block's rows, at (p, q). -/
theorem biasRows_apply (b : Vec Ideal S1x256 .f32) (p : Fin 2048) (q : Fin 256) :
    broadcastTo S2048x256 (shapeCast S1x256 b shapeCasts_S1x256_S1x256) broadcasts_S1x256_S2048x256 (ix2 p q) = b (ix2 (0 : Fin 1) q) := by
  rw [shapeCast_self]
  exact broadcastTo_apply b broadcasts_S1x256_S2048x256 (ix2 p q) (ix2 (0 : Fin 1) q) (fun a => match a with
    | ⟨0, _⟩ => rfl
    | ⟨1, _⟩ => rfl)

/-- The first layer's body: the rectified entry. -/
theorem pay0_apply (a x : Vec Ideal S2048x256 .f32) (wl wr : Vec Ideal S256x256 .f32) (b : Vec Ideal S1x256 .f32) (p : Fin 2048) (q : Fin 256) :
    k0_pay1 (F := Ideal) a x wl wr b (ix2 p q) = max (Sage.entryRow (n := 2048) a x wl b wr p q) Sage.zeroWord := by
  unfold k0_pay1
  show max ((matmul (F := Ideal) _ none _ _ _ (ix2 p q) + matmul (F := Ideal) _ none _ _ _ (ix2 p q)) + broadcastTo S2048x256 _ _ (ix2 p q)) _ = _
  rw [product_apply, product_apply, biasRows_apply]
  rfl

/-- The second layer's body: the entry itself. -/
theorem pay1_apply (a x : Vec Ideal S2048x256 .f32) (wl wr : Vec Ideal S256x256 .f32) (b : Vec Ideal S1x256 .f32) (p : Fin 2048) (q : Fin 256) :
    k1_pay1 (F := Ideal) a x wl wr b (ix2 p q) = Sage.entryRow (n := 2048) a x wl b wr p q := by
  unfold k1_pay1
  show (matmul (F := Ideal) _ none _ _ _ (ix2 p q) + matmul (F := Ideal) _ none _ _ _ (ix2 p q)) + broadcastTo S2048x256 _ _ (ix2 p q) = _
  rw [product_apply, product_apply, biasRows_apply]
  rfl

end Cert.KernelIdeal.Body

end
-- ==== Proof.Region0Value.lean ====
/-
  The first layer's kernel region: from the 2048-row blocks the grid points write back to the whole hidden array.

  Grid point t loads rows 2048 t ... 2048 t + 2047 of the neighbour means and of the target features, the whole of both
  weight matrices and the whole bias row, and writes back the rectified layer entries of those rows.  The eleven
  blocks tile the 22528 rows, so after the region the result array is the rectified layer of the region's five
  operand arrays, whatever those hold when the region is entered.
-/
import proofs.«149771_j40862318854556_1_alg».proof.Proof.Gen.KernelIdeal.Frame
import proofs.«149771_j40862318854556_1_alg».proof.Proof.Payload

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The hidden array: the rectified layer of the region's operand arrays as the region finds them. -/
def hidden (c : Dev nD) : S22528x256.Idx → EReal :=
  Sage.relu (Sage.layerRow (n := 22528) (V c main_v18) (V c main_v19) (V c main_arg5) (V c main_v20) (V c main_arg7))

/-- The printed index maps over the grid: the two row-feature windows and the result window sit at block row t,
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point t writes back is block t of the hidden array. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S2048x256) hz, View.ld_unit_zero (S := S256x256) hz, View.ld_unit_zero (S := S1x256) hz]
  obtain ⟨e00, e01, e10, e11, e20, e21, e30, e31, e40, e41, e50, e51⟩ := idx_facts t
  funext j
  obtain ⟨p, q, rfl⟩ : ∃ (p : Fin 2048) (q : Fin 256), j = ix2 p q := ⟨j 0, j 1, eq_ix2 j⟩
  have ht : t.val < 11 := t.isLt
  have hr : 2048 * t.val + p.val < 22528 := by have := p.isLt; omega
  show k0_pay1 (F := Ideal) (iblk0 V c 0 t) (iblk0 V c 1 t) (iblk0 V c 2 t) (iblk0 V c 4 t) (iblk0 V c 3 t) (ix2 p q)
      = hidden V c (((cfg0.win 5).blk t).view.emb (ix2 p q))
  refine (Body.pay0_apply _ _ _ _ _ p q).trans ?_
  have h5 : ((cfg0.win 5).blk t).view.emb (ix2 p q) = ix2 (⟨2048 * t.val + p.val, hr⟩ : Fin 22528) q := by
    funext a; apply Fin.ext
    match a with
    | ⟨0, _⟩ => show win0_5.index t (0 : Fin 2) * 2048 + 1 * p.val = 2048 * t.val + p.val; omega
    | ⟨1, _⟩ => show win0_5.index t (1 : Fin 2) * 256 + 1 * q.val = q.val; omega
  rw [h5]
  show _ = max (Sage.entryRow (n := 22528) (V c main_v18) (V c main_v19) (V c main_arg5) (V c main_v20) (V c main_arg7) ⟨2048 * t.val + p.val, hr⟩ q) Sage.zeroWord
  refine congrArg (fun z => max z Sage.zeroWord) ?_
  refine Sage.entryRow_congr (n := 22528) (n' := 2048) (V c main_v18) (V c main_v19) (iblk0 V c 0 t) (iblk0 V c 1 t)
    (V c main_arg5) (V c main_arg7) (iblk0 V c 2 t) (iblk0 V c 4 t) (V c main_v20) (iblk0 V c 3 t) ⟨2048 * t.val + p.val, hr⟩ p q q ?_ ?_ ?_ ?_ ?_
  · intro k
    show V c main_v18 (((cfg0.win 0).blk t).view.emb (ix2 p k)) = V c main_v18 (ix2 (⟨2048 * t.val + p.val, hr⟩ : Fin 22528) k)
    have e : ((cfg0.win 0).blk t).view.emb (ix2 p k) = ix2 (⟨2048 * t.val + p.val, hr⟩ : Fin 22528) k := by
      funext a; apply Fin.ext
      match a with
      | ⟨0, _⟩ => show win0_0.index t (0 : Fin 2) * 2048 + 1 * p.val = 2048 * t.val + p.val; omega
      | ⟨1, _⟩ => show win0_0.index t (1 : Fin 2) * 256 + 1 * k.val = k.val; omega
    rw [e]
  · intro k
    show V c main_v19 (((cfg0.win 1).blk t).view.emb (ix2 p k)) = V c main_v19 (ix2 (⟨2048 * t.val + p.val, hr⟩ : Fin 22528) k)
    have e : ((cfg0.win 1).blk t).view.emb (ix2 p k) = ix2 (⟨2048 * t.val + p.val, hr⟩ : Fin 22528) k := by
      funext a; apply Fin.ext
      match a with
      | ⟨0, _⟩ => show win0_1.index t (0 : Fin 2) * 2048 + 1 * p.val = 2048 * t.val + p.val; omega
      | ⟨1, _⟩ => show win0_1.index t (1 : Fin 2) * 256 + 1 * k.val = k.val; omega
    rw [e]
  · intro k
    show V c main_arg5 (((cfg0.win 2).blk t).view.emb (ix2 q k)) = V c main_arg5 (ix2 q k)
    have e : ((cfg0.win 2).blk t).view.emb (ix2 q k) = ix2 q k := by
      funext a; apply Fin.ext
      match a with
      | ⟨0, _⟩ => show win0_2.index t (0 : Fin 2) * 256 + 1 * q.val = q.val; omega
      | ⟨1, _⟩ => show win0_2.index t (1 : Fin 2) * 256 + 1 * k.val = k.val; omega
    rw [e]
  · intro k
    show V c main_arg7 (((cfg0.win 4).blk t).view.emb (ix2 q k)) = V c main_arg7 (ix2 q k)
    have e : ((cfg0.win 4).blk t).view.emb (ix2 q k) = ix2 q k := by
      funext a; apply Fin.ext
      match a with
      | ⟨0, _⟩ => show win0_4.index t (0 : Fin 2) * 256 + 1 * q.val = q.val; omega
      | ⟨1, _⟩ => show win0_4.index t (1 : Fin 2) * 256 + 1 * k.val = k.val; omega
    rw [e]
  · show V c main_v20 (((cfg0.win 3).blk t).view.emb (ix2 (0 : Fin 1) q)) = V c main_v20 (ix2 (0 : Fin 1) q)
    have e : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 256 + 1 * q.val = q.val; omega
    rw [e]

/-- An index of the result array is in grid point t's block iff its row is one of the block's 2048 rows. -/
theorem mem_blk (t : Fin cfg0.N) (i : S22528x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v21).slice (win0_5.rect t)).set ↔ _
  rw [View.set_slice_whole, Rect.mem_set_unit]
  exact Iff.rfl

/-- Every index of the result array is in some grid point's block: row r is in block r / 2048. -/
theorem cover (i : S22528x256.Idx) : ∃ t : Fin cfg0.N, (cfg0.win 5).flush t = true ∧ i ∈ ((cfg0.win 5).blk t).view.set := by
  have hi0 : (i 0).val < 22528 := (i 0).isLt
  have hi1 : (i 1).val < 256 := (i 1).isLt
  refine ⟨⟨(i 0).val / 2048, by show (i 0).val / 2048 < 11; omega⟩, flush0_5 _, ?_⟩
  rw [mem_blk]
  obtain ⟨e00, e01, e10, e11, e20, e21, e30, e31, e40, e41, e50, e51⟩ := idx_facts ⟨(i 0).val / 2048, by show (i 0).val / 2048 < 11; omega⟩
  have e50' : win0_5.index ⟨(i 0).val / 2048, by show (i 0).val / 2048 < 11; omega⟩ (0 : Fin 2) = (i 0).val / 2048 := e50
  intro a
  match a with
  | ⟨0, _⟩ => show win0_5.index _ (0 : Fin 2) * 2048 ≤ (i 0).val ∧ (i 0).val < win0_5.index _ (0 : Fin 2) * 2048 + 2048; omega
  | ⟨1, _⟩ => show win0_5.index _ (1 : Fin 2) * 256 ≤ (i 1).val ∧ (i 1).val < win0_5.index _ (1 : Fin 2) * 256 + 256; omega

/-- After the region the result array is the hidden array. -/
theorem final (c : Dev nD) : (dat0 V c).arrAt 5 cfg0.N = hidden V c :=
  (dat0 V c).arrAt_eq_of_cover 5 (hidden V c) (fun t _ => flushed_eq V c t) cover

end Cert.KernelIdeal.Region0

end
-- ==== Proof.Region1Value.lean ====
/-
  The second layer's kernel region: its one grid point covers the whole 2048-row result.

  The grid has one point; it loads the whole of the neighbour means of the hidden features, the first 2048 hidden
  rows, both weight matrices and the bias row, and writes back the layer's entries (no rectifier).  After the region
  the result array is the layer of the region's five operand arrays, whatever those hold when the region is entered.
-/
import proofs.«149771_j40862318854556_1_alg».proof.Proof.Gen.KernelIdeal.Frame
import proofs.«149771_j40862318854556_1_alg».proof.Proof.Payload

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The result array: the layer of the region's operand arrays as the region finds them. -/
def out (c : Dev nD) : S2048x256.Idx → EReal :=
  Sage.layerRow (n := 2048) (V c main_v40) (V c main_v41) (V c main_arg8) (V c main_v42) (V c main_arg10)

/-- The printed index maps over the one-point grid: every window sits at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the grid point writes back is the result array read through its (whole) block. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2048x256) hz, View.ld_unit_zero (S := S256x256) hz, View.ld_unit_zero (S := S1x256) hz]
  obtain ⟨e00, e01, e10, e11, e20, e21, e30, e31, e40, e41, e50, e51⟩ := idx_facts t
  funext j
  obtain ⟨p, q, rfl⟩ : ∃ (p : Fin 2048) (q : Fin 256), j = ix2 p q := ⟨j 0, j 1, eq_ix2 j⟩
  have ht : t.val < 1 := t.isLt
  have hr : 2048 * t.val + p.val < 2048 := by have := p.isLt; omega
  show k1_pay1 (F := Ideal) (iblk1 V c 0 t) (iblk1 V c 1 t) (iblk1 V c 2 t) (iblk1 V c 4 t) (iblk1 V c 3 t) (ix2 p q)
      = out V c (((cfg1.win 5).blk t).view.emb (ix2 p q))
  refine (Body.pay1_apply _ _ _ _ _ p q).trans ?_
  have h5 : ((cfg1.win 5).blk t).view.emb (ix2 p q) = ix2 (⟨2048 * t.val + p.val, hr⟩ : Fin 2048) q := by
    funext a; apply Fin.ext
    match a with
    | ⟨0, _⟩ => show win1_5.index t (0 : Fin 2) * 2048 + 1 * p.val = 2048 * t.val + p.val; omega
    | ⟨1, _⟩ => show win1_5.index t (1 : Fin 2) * 256 + 1 * q.val = q.val; omega
  rw [h5]
  show _ = Sage.entryRow (n := 2048) (V c main_v40) (V c main_v41) (V c main_arg8) (V c main_v42) (V c main_arg10) ⟨2048 * t.val + p.val, hr⟩ q
  refine Sage.entryRow_congr (n := 2048) (n' := 2048) (V c main_v40) (V c main_v41) (iblk1 V c 0 t) (iblk1 V c 1 t)
    (V c main_arg8) (V c main_arg10) (iblk1 V c 2 t) (iblk1 V c 4 t) (V c main_v42) (iblk1 V c 3 t) ⟨2048 * t.val + p.val, hr⟩ p q q ?_ ?_ ?_ ?_ ?_
  · intro k
    show V c main_v40 (((cfg1.win 0).blk t).view.emb (ix2 p k)) = V c main_v40 (ix2 (⟨2048 * t.val + p.val, hr⟩ : Fin 2048) k)
    have e : ((cfg1.win 0).blk t).view.emb (ix2 p k) = ix2 (⟨2048 * t.val + p.val, hr⟩ : Fin 2048) k := by
      funext a; apply Fin.ext
      match a with
      | ⟨0, _⟩ => show win1_0.index t (0 : Fin 2) * 2048 + 1 * p.val = 2048 * t.val + p.val; omega
      | ⟨1, _⟩ => show win1_0.index t (1 : Fin 2) * 256 + 1 * k.val = k.val; omega
    rw [e]
  · intro k
    show V c main_v41 (((cfg1.win 1).blk t).view.emb (ix2 p k)) = V c main_v41 (ix2 (⟨2048 * t.val + p.val, hr⟩ : Fin 2048) k)
    have e : ((cfg1.win 1).blk t).view.emb (ix2 p k) = ix2 (⟨2048 * t.val + p.val, hr⟩ : Fin 2048) k := by
      funext a; apply Fin.ext
      match a with
      | ⟨0, _⟩ => show win1_1.index t (0 : Fin 2) * 2048 + 1 * p.val = 2048 * t.val + p.val; omega
      | ⟨1, _⟩ => show win1_1.index t (1 : Fin 2) * 256 + 1 * k.val = k.val; omega
    rw [e]
  · intro k
    show V c main_arg8 (((cfg1.win 2).blk t).view.emb (ix2 q k)) = V c main_arg8 (ix2 q k)
    have e : ((cfg1.win 2).blk t).view.emb (ix2 q k) = ix2 q k := by
      funext a; apply Fin.ext
      match a with
      | ⟨0, _⟩ => show win1_2.index t (0 : Fin 2) * 256 + 1 * q.val = q.val; omega
      | ⟨1, _⟩ => show win1_2.index t (1 : Fin 2) * 256 + 1 * k.val = k.val; omega
    rw [e]
  · intro k
    show V c main_arg10 (((cfg1.win 4).blk t).view.emb (ix2 q k)) = V c main_arg10 (ix2 q k)
    have e : ((cfg1.win 4).blk t).view.emb (ix2 q k) = ix2 q k := by
      funext a; apply Fin.ext
      match a with
      | ⟨0, _⟩ => show win1_4.index t (0 : Fin 2) * 256 + 1 * q.val = q.val; omega
      | ⟨1, _⟩ => show win1_4.index t (1 : Fin 2) * 256 + 1 * k.val = k.val; omega
    rw [e]
  · show V c main_v42 (((cfg1.win 3).blk t).view.emb (ix2 (0 : Fin 1) q)) = V c main_v42 (ix2 (0 : Fin 1) q)
    have e : ((cfg1.win 3).blk t).view.emb (ix2 (0 : Fin 1) q) = ix2 (0 : Fin 1) q := by
      funext a; apply Fin.ext
      match a with
      | ⟨0, _⟩ => show win1_3.index t (0 : Fin 2) * 1 + 1 * 0 = 0; omega
      | ⟨1, _⟩ => show win1_3.index t (1 : Fin 2) * 256 + 1 * q.val = q.val; omega
    rw [e]

/-- Membership in the grid point's block, coordinate by coordinate. -/
theorem mem_blk (t : Fin cfg1.N) (i : S2048x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_v43).slice (win1_5.rect t)).set ↔ _
  rw [View.set_slice_whole, Rect.mem_set_unit]
  exact Iff.rfl

/-- Every index of the result array is in the one grid point's block. -/
theorem cover (i : S2048x256.Idx) : ∃ t : Fin cfg1.N, (cfg1.win 5).flush t = true ∧ i ∈ ((cfg1.win 5).blk t).view.set := by
  have hi0 : (i 0).val < 2048 := (i 0).isLt
  have hi1 : (i 1).val < 256 := (i 1).isLt
  refine ⟨⟨(i 0).val / 2048, by show (i 0).val / 2048 < 1; omega⟩, flush1_5 _, ?_⟩
  rw [mem_blk]
  obtain ⟨e00, e01, e10, e11, e20, e21, e30, e31, e40, e41, e50, e51⟩ := idx_facts ⟨(i 0).val / 2048, by show (i 0).val / 2048 < 1; omega⟩
  have e50' : win1_5.index ⟨(i 0).val / 2048, by show (i 0).val / 2048 < 1; omega⟩ (0 : Fin 2) = (i 0).val / 2048 := e50
  intro a
  match a with
  | ⟨0, _⟩ => show win1_5.index _ (0 : Fin 2) * 2048 ≤ (i 0).val ∧ (i 0).val < win1_5.index _ (0 : Fin 2) * 2048 + 2048; omega
  | ⟨1, _⟩ => show win1_5.index _ (1 : Fin 2) * 256 ≤ (i 1).val ∧ (i 1).val < win1_5.index _ (1 : Fin 2) * 256 + 256; omega

/-- After the region the result array is the result array. -/
theorem final (c : Dev nD) : (dat1 V c).arrAt 5 cfg1.N = out V c :=
  (dat1 V c).arrAt_eq_of_cover 5 (out V c) (fun t _ => flushed_eq V c t) cover

end Cert.KernelIdeal.Region1

end
-- ==== Proof.KernelValue.lean ====
/-
  The kernel program's result, in the reference's own stage terms.

  The first region leaves the rectified first layer of the first neighbour mean and the first 22528 input rows: the
  reference's hidden stage (the bias is added last by the kernel, second by the reference; the sums agree).  The host
  operations between the regions form the second mean and take the first 2048 rows of that hidden array exactly as
  the reference does, so the second region leaves the reference's result stage.
-/
import proofs.«149771_j40862318854556_1_alg».proof.Proof.KernelHost
import proofs.«149771_j40862318854556_1_alg».proof.Proof.Region0Value
import proofs.«149771_j40862318854556_1_alg».proof.Proof.Region1Value

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen
open Cert.ReferenceIdeal.Read (val_main_v0 val_main_v19 val_main_v28 val_main_v29 val_main_v48 val_main_v56)

variable (m : (ℓ : Loc nD τ sig) → Buf (Elt Ideal) ℓ) (ρ : Dev nD → PrngReg) (c : Dev nD)

/-- What the first region leaves in its result array is the reference's hidden stage of the launch contents. -/
theorem hidden_eq : W2 m ρ c (Proc.devRef .tc main_v21)
    = val_main_v28 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine ((W2_arr m ρ c 5).trans (Region0.final (V1 m ρ) c)).trans ?_
  unfold Region0.hidden
  rw [HostSide.mean0, HostSide.target0, HostSide.wl0, HostSide.wr0]
  rw [Sage.layerRow_eq_layer _ _ _ _ (m ((c : Thread nD τ).loc main_arg6)) (V1 m ρ c main_v20) (HostSide.bias0 m ρ c)]
  exact (Cert.ReferenceIdeal.Layers.hidden_eq _ _ _ _ _ _).symm

/-- What the second region leaves in the program's result buffer is the reference's result stage. -/
theorem result_eq : W4 m ρ c (Proc.devRef .tc main_v43)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 5).trans (Region1.final (V3 m ρ) c)).trans ?_
  unfold Region1.out
  rw [HostSide.mean1, HostSide.target1, HostSide.wl1, HostSide.wr1, hidden_eq]
  rw [Sage.layerRow_eq_layer _ _ _ _ (m ((c : Thread nD τ).loc main_arg9)) (V3 m ρ c main_v42) (HostSide.bias1 m ρ c)]
  rw [← Cert.ReferenceIdeal.Layers.mean1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    ← Cert.ReferenceIdeal.Layers.target1_eq (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))]
  exact (Cert.ReferenceIdeal.Layers.out_eq _ _ _ _ _ _ _ _ _ _ _).symm

end Cert.KernelIdeal.Result

end
-- ==== Proof.lean ====
/-
  Two GraphSAGE layers: a Pallas kernel program against its jnp reference, over the extended reals.

  Both programs form each layer's neighbour mean on the host with the same gather, scatter-adds and division.  The
  kernel program then computes  relu((A . Wl0^T + X . Wr0^T) + b0)  block by block in a first pallas_call and
  (A' . Wl1^T + X' . Wr1^T) + b1  in a second, where the reference computes  relu((A . Wl0^T + b0) + X . Wr0^T)  and
  (A' . Wl1^T + b1) + X' . Wr1^T  with host contractions.  Rounding to bf16 is the identity on the extended reals, a
  matrix product into a zero accumulator is the contraction's sum, and the three summands may be added in either order,
  so the results agree entry by entry; the precondition (finite inputs) is never used.

  The three frames are the generated frame proofs (the reference's: its generated run with the result dropped); the
  idealization rewrote nothing, so `preserves` is trivial.
-/
import proofs.«149771_j40862318854556_1_alg».proof.Defs
import proofs.«149771_j40862318854556_1_alg».proof.Proof.Gen.Kernel
import proofs.«149771_j40862318854556_1_alg».proof.Proof.Gen.Kernel.Skeleton
import proofs.«149771_j40862318854556_1_alg».proof.Proof.Gen.Kernel.Launch
import proofs.«149771_j40862318854556_1_alg».proof.Proof.Gen.Kernel.Points
import proofs.«149771_j40862318854556_1_alg».proof.Proof.Gen.Kernel.Frame
import proofs.«149771_j40862318854556_1_alg».proof.Proof.Gen.KernelIdeal
import proofs.«149771_j40862318854556_1_alg».proof.Proof.Gen.KernelIdeal.Skeleton
import proofs.«149771_j40862318854556_1_alg».proof.Proof.Gen.KernelIdeal.Launch
import proofs.«149771_j40862318854556_1_alg».proof.Proof.Gen.KernelIdeal.Points
import proofs.«149771_j40862318854556_1_alg».proof.Proof.Gen.KernelIdeal.Frame
import proofs.«149771_j40862318854556_1_alg».proof.Proof.Gen.ReferenceIdeal
import proofs.«149771_j40862318854556_1_alg».proof.Proof.Gen.Pre_finite_inputs
import proofs.«149771_j40862318854556_1_alg».proof.Proof.Gen.ReferenceIdeal.Run
import proofs.«149771_j40862318854556_1_alg».proof.Proof.Gen.ReferenceIdeal.Read
import proofs.«149771_j40862318854556_1_alg».proof.Proof.KernelIdealRun
import proofs.«149771_j40862318854556_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) argument arrays in their result buffer. -/
theorem algebraic : Cert.algebraic_KernelIdeal_ReferenceIdeal := by
  intro m ρ m' ρ' _ hagree
  refine ⟨fun c => Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Result.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v56_eq]
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
